-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S64x128 : Shape := ⟨2, ![64, 128]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_arg6 : FVec F S64x64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1000000 32) (main_arg2 : FVec F S64x128 .f32) (main_arg3 : FVec F S64 .f32) (main_arg4 : FVec F S64x64 .f32) (main_arg5 : FVec F S64 .f32) (main_arg6 : FVec F S64x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x128 : Shape := ⟨2, ![100000, 128]⟩
abbrev S2x1000000 : Shape := ⟨2, ![2, 1000000]⟩
abbrev S64x128 : Shape := ⟨2, ![64, 128]⟩
abbrev S64 : Shape := ⟨1, ![64]⟩
abbrev S64x64 : Shape := ⟨2, ![64, 64]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S100000x64 : Shape := ⟨2, ![100000, 64]⟩
abbrev S10000x128 : Shape := ⟨2, ![10000, 128]⟩
abbrev S10000x64 : Shape := ⟨2, ![10000, 64]⟩
abbrev S128x64 : Shape := ⟨2, ![128, 64]⟩
abbrev S1100000x64 : Shape := ⟨2, ![1100000, 64]⟩
abbrev S1x64 : Shape := ⟨2, ![1, 64]⟩

abbrev nBuf : Space → Nat
  | .hbm => 67
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S64x128, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x1000000, .i32⟩
  | .hbm, ⟨10, _⟩ => ⟨S1000000, .i32⟩
  | .hbm, ⟨11, _⟩ => ⟨S1100000, .i32⟩
  | .hbm, ⟨12, _⟩ => ⟨S1x1000000, .i32⟩
  | .hbm, ⟨13, _⟩ => ⟨S1000000, .i32⟩
  | .hbm, ⟨14, _⟩ => ⟨S1100000, .i32⟩
  | .hbm, ⟨15, _⟩ => ⟨S_, .f32⟩
  | .hbm, ⟨16, _⟩ => ⟨S1100000, .f32⟩
  | .hbm, ⟨17, _⟩ => ⟨S_, .f32⟩
  | .hbm, ⟨18, _⟩ => ⟨S100000, .f32⟩
  | .hbm, ⟨19, _⟩ => ⟨S1100000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1100000, .i32⟩
  | .hbm, ⟨31, _⟩ => ⟨S1100000, .i1⟩
  | .hbm, ⟨32, _⟩ => ⟨S_, .i32⟩
  | .hbm, ⟨33, _⟩ => ⟨S1100000, .i32⟩
  | .hbm, ⟨34, _⟩ => ⟨S1100000, .i32⟩
  | .hbm, ⟨35, _⟩ => ⟨S1100000, .i32⟩
  | .hbm, ⟨36, _⟩ => ⟨S1100000x1, .i32⟩
  | .hbm, ⟨37, _⟩ => ⟨S1100000, .f32⟩
  | .hbm, ⟨38, _⟩ => ⟨S_, .i32⟩
  | .hbm, ⟨39, _⟩ => ⟨S1100000, .i32⟩
  | .hbm, ⟨40, _⟩ => ⟨S1100000, .i1⟩
  | .hbm, ⟨41, _⟩ => ⟨S_, .i32⟩
  | .hbm, ⟨42, _⟩ => ⟨S1100000, .i32⟩
  | .hbm, ⟨43, _⟩ => ⟨S1100000, .i32⟩
  | .hbm, ⟨44, _⟩ => ⟨S1100000, .i32⟩
  | .hbm, ⟨45, _⟩ => ⟨S1100000x1, .i32⟩
  | .hbm, ⟨46, _⟩ => ⟨S1100000, .f32⟩
  | .hbm, ⟨47, _⟩ => ⟨S1100000, .f32⟩
  | .hbm, ⟨48, _⟩ => ⟨S100000x64, .f32⟩
  | .hbm, ⟨49, _⟩ => ⟨S_, .i32⟩
  | .hbm, ⟨50, _⟩ => ⟨S1100000, .i32⟩
  | .hbm, ⟨51, _⟩ => ⟨S1100000, .i1⟩
  | .hbm, ⟨52, _⟩ => ⟨S_, .i32⟩
  | .hbm, ⟨53, _⟩ => ⟨S1100000, .i32⟩
  | .hbm, ⟨54, _⟩ => ⟨S1100000, .i32⟩
  | .hbm, ⟨55, _⟩ => ⟨S1100000, .i32⟩
  | .hbm, ⟨56, _⟩ => ⟨S1100000x1, .i32⟩
  | .hbm, ⟨57, _⟩ => ⟨S1100000x64, .f32⟩
  | .hbm, ⟨58, _⟩ => ⟨S1100000x1, .f32⟩
  | .hbm, ⟨59, _⟩ => ⟨S1100000x64, .f32⟩
  | .hbm, ⟨60, _⟩ => ⟨S1100000x64, .f32⟩
  | .hbm, ⟨61, _⟩ => ⟨S_, .f32⟩
  | .hbm, ⟨62, _⟩ => ⟨S100000x64, .f32⟩
  | .hbm, ⟨63, _⟩ => ⟨S1100000x1, .i32⟩
  | .hbm, ⟨64, _⟩ => ⟨S100000x64, .f32⟩
  | .hbm, ⟨65, _⟩ => ⟨S100000x64, .f32⟩
  | .hbm, ⟨66, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S64x128, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64, .f32⟩
  | .local _ .vmem, ⟨8, _⟩ => ⟨S64x64, .f32⟩
  | .local _ .vmem, ⟨9, _⟩ => ⟨S64, .f32⟩
  | .local _ .vmem, ⟨10, _⟩ => ⟨S64x64, .f32⟩
  | .local _ .vmem, ⟨11, _⟩ => ⟨S64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44_0 : Ref sig .tc := ⟨.hbm, 65, rfl⟩
abbrev main_v44_1 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S10000x64_S10000x64_0_0 : ∀ a, (![0, 0] : Fin 2 → Nat) a + S10000x64.size a ≤ S10000x64.size a
  h_S10000x64 : 0 < S10000x64.numel
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S10000x128_S128x64_S10000x64_1_0_0_1_n_n_wf : DotDims.WF S10000x128 S128x64 S10000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S100000x64.size a
  hwx1_6 : ∀ i : grid1.Coords, EltTy.bits .f32 = 32 ∨ (Rect.block (s := S100000x64) S10000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S100000x64.size a
  hwx1_7 : ∀ i : grid1.Coords, EltTy.bits .f32 = 32 ∨ (Rect.block (s := S100000x64) S10000x64.size (cc1_transform_7 i) (hinb1_7 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44_0) S10000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v44_1) S10000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S64x128 : Shape := ⟨2, ![64, 128]⟩
abbrev S64 : Shape := ⟨1, ![64]⟩
abbrev S64x64 : Shape := ⟨2, ![64, 64]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S128x64 : Shape := ⟨2, ![128, 64]⟩
abbrev S100000x64 : Shape := ⟨2, ![100000, 64]⟩
abbrev S1100000x64 : Shape := ⟨2, ![1100000, 64]⟩
abbrev S1x64 : Shape := ⟨2, ![1, 64]⟩

abbrev nBuf : Space → Nat
  | .hbm => 82
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S64x128, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x1000000, .i32⟩
  | .hbm, ⟨10, _⟩ => ⟨S1000000, .i32⟩
  | .hbm, ⟨11, _⟩ => ⟨S1100000, .i32⟩
  | .hbm, ⟨12, _⟩ => ⟨S1x1000000, .i32⟩
  | .hbm, ⟨13, _⟩ => ⟨S1000000, .i32⟩
  | .hbm, ⟨14, _⟩ => ⟨S1100000, .i32⟩
  | .hbm, ⟨15, _⟩ => ⟨S_, .f32⟩
  | .hbm, ⟨16, _⟩ => ⟨S1100000, .f32⟩
  | .hbm, ⟨17, _⟩ => ⟨S_, .f32⟩
  | .hbm, ⟨18, _⟩ => ⟨S100000, .f32⟩
  | .hbm, ⟨19, _⟩ => ⟨S1100000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1100000, .i32⟩
  | .hbm, ⟨31, _⟩ => ⟨S1100000, .i1⟩
  | .hbm, ⟨32, _⟩ => ⟨S_, .i32⟩
  | .hbm, ⟨33, _⟩ => ⟨S1100000, .i32⟩
  | .hbm, ⟨34, _⟩ => ⟨S1100000, .i32⟩
  | .hbm, ⟨35, _⟩ => ⟨S1100000, .i32⟩
  | .hbm, ⟨36, _⟩ => ⟨S1100000x1, .i32⟩
  | .hbm, ⟨37, _⟩ => ⟨S1100000, .f32⟩
  | .hbm, ⟨38, _⟩ => ⟨S_, .i32⟩
  | .hbm, ⟨39, _⟩ => ⟨S1100000, .i32⟩
  | .hbm, ⟨40, _⟩ => ⟨S1100000, .i1⟩
  | .hbm, ⟨41, _⟩ => ⟨S_, .i32⟩
  | .hbm, ⟨42, _⟩ => ⟨S1100000, .i32⟩
  | .hbm, ⟨43, _⟩ => ⟨S1100000, .i32⟩
  | .hbm, ⟨44, _⟩ => ⟨S1100000, .i32⟩
  | .hbm, ⟨45, _⟩ => ⟨S1100000x1, .i32⟩
  | .hbm, ⟨46, _⟩ => ⟨S1100000, .f32⟩
  | .hbm, ⟨47, _⟩ => ⟨S1100000, .f32⟩
  | .hbm, ⟨48, _⟩ => ⟨S128x64, .f32⟩
  | .hbm, ⟨49, _⟩ => ⟨S100000x64, .f32⟩
  | .hbm, ⟨50, _⟩ => ⟨S_, .i32⟩
  | .hbm, ⟨51, _⟩ => ⟨S1100000, .i32⟩
  | .hbm, ⟨52, _⟩ => ⟨S1100000, .i1⟩
  | .hbm, ⟨53, _⟩ => ⟨S_, .i32⟩
  | .hbm, ⟨54, _⟩ => ⟨S1100000, .i32⟩
  | .hbm, ⟨55, _⟩ => ⟨S1100000, .i32⟩
  | .hbm, ⟨56, _⟩ => ⟨S1100000, .i32⟩
  | .hbm, ⟨57, _⟩ => ⟨S1100000x1, .i32⟩
  | .hbm, ⟨58, _⟩ => ⟨S1100000x64, .f32⟩
  | .hbm, ⟨59, _⟩ => ⟨S1100000x1, .f32⟩
  | .hbm, ⟨60, _⟩ => ⟨S1100000x64, .f32⟩
  | .hbm, ⟨61, _⟩ => ⟨S1100000x64, .f32⟩
  | .hbm, ⟨62, _⟩ => ⟨S_, .f32⟩
  | .hbm, ⟨63, _⟩ => ⟨S100000x64, .f32⟩
  | .hbm, ⟨64, _⟩ => ⟨S1100000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S64x64, .f32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | .hbm, ⟨77, _⟩ => ⟨S64x64, .f32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  transposes_S64x128_S128x64_1_0 : S64x128.Transposes [1, 0] S128x64
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S64x64_S64x64_1_0 : S64x64.Transposes [1, 0] S64x64
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x128_S128x64_S100000x64_1_0_0_1_n_n_wf : DotDims.WF S100000x128 S128x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S100000x64_S64x64_S100000x64_1_0_0_1_n_n_wf : DotDims.WF S100000x64 S64x64 S100000x64 [1] [0] [0] [1] [] []

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.Payload.lean ====
/-
  What each kernel body stores, entry by entry, over a block of 10000 rows.

  The first body stores the block of x times W1ᵀ: its product into a zero accumulator is the plain sum over the 128
  features, the rounding to bf16 is the identity over the extended reals, and the transposed weight read at (k, q) is
  the weight at (q, k). The second body adds the bias row to the block, takes the maximum with zero, multiplies by a
  transposed 64 × 64 weight and adds a second bias row; both of its stores are that one function, of different weights.
-/
import proofs.«127251_j34497177322134_1_alg».proof.Proof.Gen.KernelIdeal.Skeleton
import proofs.«127251_j34497177322134_1_alg».proof.Proof.LibDotPlain
import Idealize.ShloMosaic.Lib.Pipeline.Value
import Idealize.ShloMosaic.Lib.ValueLayout
import Idealize.ShloMosaic.Lib.ValueIdx

noncomputable section

namespace Cert.KernelIdeal.Body

open Cert.KernelIdeal Cert.KernelIdeal.Gen Idealize.ShloMosaic Idealize.ShloMosaic.ValueIdx
open scoped BigOperators

/-- The first body's store at (p, q): row p of the x block against row q of the weight. -/
theorem linear_block_apply (x0 : Vec Ideal S10000x128 .f32) (x1 : Vec Ideal S64x128 .f32) (p : Fin 10000) (q : Fin 64) :
    k0_pay1 (F := Ideal) x0 x1 (ix2 p q) = ∑ k : Fin 128, x0 (ix2 p k) * x1 (ix2 q k) := by
  unfold k0_pay1
  refine (Cert.DotPlain.matmul_zero_rows_cols dot_S10000x128_S128x64_S10000x64_1_0_0_1_n_n rfl rfl rfl rfl rfl rfl
    none _ _ p q).trans ?_
  refine Finset.sum_congr rfl fun k _ => ?_
  exact congrArg (fun z => x0 (ix2 p k) * z) (transpose_ix2_apply _ transposes_S64x128_p1_0_S128x64 k q)

/-- The second body's rectified block at (p, k): the block plus the bias row, no less than zero. -/
theorem relu_block_apply (v0 : Vec Ideal S10000x64 .f32) (v2 : Vec Ideal S64 .f32) (p : Fin 10000) (k : Fin 64) :
    k1_pay1 (F := Ideal) v0 v2 (ix2 p k) = max (v0 (ix2 p k) + v2 (ix1 k)) (Ideal.ofBits .f32 0x00000000#32) := by
  have e1 : shapeCast S10000x64 v0 shapeCasts_S10000x64_S10000x64 (ix2 p k) = v0 (ix2 p k) :=
    congrFun (shapeCast_self v0 _) _
  have e2 : broadcastTo S10000x64 (shapeCast S1x64 v2 shapeCasts_S64_S1x64) broadcasts_S1x64_S10000x64 (ix2 p k) = v2 (ix1 k) :=
    (broadcastTo_1b_ab_apply _ _ p k).trans (shapeCast_a_1a_apply v2 _ 0 k)
  unfold k1_pay1
  show max (shapeCast S10000x64 v0 shapeCasts_S10000x64_S10000x64 (ix2 p k)
      + broadcastTo S10000x64 (shapeCast S1x64 v2 shapeCasts_S64_S1x64) broadcasts_S1x64_S10000x64 (ix2 p k))
      (Ideal.ofBits .f32 0x00000000#32) = _
  rw [e1, e2]

/-- The second body's first store at (p, q): the rectified row p against row q of the weight, plus the bias at q. -/
theorem head_block_apply (v0 : Vec Ideal S10000x64 .f32) (v2 : Vec Ideal S64 .f32) (v9 : Vec Ideal S64x64 .f32)
    (v15 : Vec Ideal S64 .f32) (p : Fin 10000) (q : Fin 64) :
    k1_pay2 (F := Ideal) v0 v2 v9 v15 (ix2 p q)
      = (∑ k : Fin 64, max (v0 (ix2 p k) + v2 (ix1 k)) (Ideal.ofBits .f32 0x00000000#32) * v9 (ix2 q k)) + v15 (ix1 q) := by
  have h1 : matmul dot_S10000x64_S64x64_S10000x64_1_0_0_1_n_n none (k1_pay1 (F := Ideal) v0 v2)
        (transpose S64x64 [1, 0] (truncf .bf16 v9 bitsLt_bf16_f32) transposes_S64x64_p1_0_S64x64)
        (constant S10000x64 .f32 0x00000000#32) (ix2 p q)
      = ∑ k : Fin 64, max (v0 (ix2 p k) + v2 (ix1 k)) (Ideal.ofBits .f32 0x00000000#32) * v9 (ix2 q k) := by
    refine (Cert.DotPlain.matmul_zero_rows_cols dot_S10000x64_S64x64_S10000x64_1_0_0_1_n_n rfl rfl rfl rfl rfl rfl
      none _ _ p q).trans ?_
    refine Finset.sum_congr rfl fun k _ => ?_
    exact congrArg₂ (fun a b => a * b) (relu_block_apply v0 v2 p k)
      (transpose_ix2_apply _ transposes_S64x64_p1_0_S64x64 k q)
  have h2 : broadcastTo S10000x64 (shapeCast S1x64 v15 shapeCasts_S64_S1x64) broadcasts_S1x64_S10000x64 (ix2 p q) = v15 (ix1 q) :=
    (broadcastTo_1b_ab_apply _ _ p q).trans (shapeCast_a_1a_apply v15 _ 0 q)
  unfold k1_pay2
  show matmul dot_S10000x64_S64x64_S10000x64_1_0_0_1_n_n none (k1_pay1 (F := Ideal) v0 v2)
        (transpose S64x64 [1, 0] (truncf .bf16 v9 bitsLt_bf16_f32) transposes_S64x64_p1_0_S64x64)
        (constant S10000x64 .f32 0x00000000#32) (ix2 p q)
      + broadcastTo S10000x64 (shapeCast S1x64 v15 shapeCasts_S64_S1x64) broadcasts_S1x64_S10000x64 (ix2 p q) = _
  rw [h1, h2]

/-- The second store is the first store's function of the other weight and bias. -/
theorem second_store_eq (v0 : Vec Ideal S10000x64 .f32) (v2 : Vec Ideal S64 .f32) (v11 : Vec Ideal S64x64 .f32)
    (v21 : Vec Ideal S64 .f32) : k1_pay3 (F := Ideal) v0 v2 v11 v21 = k1_pay2 (F := Ideal) v0 v2 v11 v21 := rfl

end Cert.KernelIdeal.Body

end
-- ==== Proof.Spec.lean ====
/-
  The two results of the graph encoder as functions of arrays, entry by entry, over the extended reals.

  With h = x · W1ᵀ (100000 × 64) and A the normalised neighbourhood sum of the rows of h, the encoder returns
  relu(A + b1) · Wmuᵀ + bmu and relu(A + b1) · Wlvᵀ + blv. Two pieces of that are matrix products: `lin` is the first
  one, `head` a rectified row, a product and a bias. The neighbourhood sum between them is the same sequence of host
  operations in both programs and is never opened. The float word of zero is kept as a word: both programs write the
  same one.
-/
import Idealize.ShloMosaic.PureOps.Ideal
import Idealize.ShloMosaic.Lib.ValueIdx

noncomputable section

namespace Cert.Encoder

open Idealize.ShloMosaic Idealize.ShloMosaic.ValueIdx
open scoped BigOperators

/-- Entry (p, q) of x · wᵀ: the sum over the 128 input features of x (p, k) · w (q, k). -/
def linAt (x : (⟨2, ![100000, 128]⟩ : Shape).Idx → EReal) (w : (⟨2, ![64, 128]⟩ : Shape).Idx → EReal)
    (p : Fin 100000) (q : Fin 64) : EReal :=
  ∑ k : Fin 128, x (ix2 p k) * w (ix2 q k)

/-- x · wᵀ as an array. -/
def lin (x : (⟨2, ![100000, 128]⟩ : Shape).Idx → EReal) (w : (⟨2, ![64, 128]⟩ : Shape).Idx → EReal) :
    (⟨2, ![100000, 64]⟩ : Shape).Idx → EReal :=
  fun i => linAt x w (i 0) (i 1)

theorem lin_apply (x : (⟨2, ![100000, 128]⟩ : Shape).Idx → EReal) (w : (⟨2, ![64, 128]⟩ : Shape).Idx → EReal)
    (p : Fin 100000) (q : Fin 64) : lin x w (ix2 p q) = linAt x w p q := rfl

/-- Entry (p, q) of relu(a + b) · wᵀ + c: the sum over the 64 hidden features of max (a (p, k) + b k, 0) · w (q, k),
    plus c q. -/
def headAt (a : (⟨2, ![100000, 64]⟩ : Shape).Idx → EReal) (b : (⟨1, ![64]⟩ : Shape).Idx → EReal)
    (w : (⟨2, ![64, 64]⟩ : Shape).Idx → EReal) (c : (⟨1, ![64]⟩ : Shape).Idx → EReal) (p : Fin 100000) (q : Fin 64) : EReal :=
  (∑ k : Fin 64, max (a (ix2 p k) + b (ix1 k)) (Ideal.ofBits .f32 0x00000000#32) * w (ix2 q k)) + c (ix1 q)

/-- relu(a + b) · wᵀ + c as an array. -/
def head (a : (⟨2, ![100000, 64]⟩ : Shape).Idx → EReal) (b : (⟨1, ![64]⟩ : Shape).Idx → EReal)
    (w : (⟨2, ![64, 64]⟩ : Shape).Idx → EReal) (c : (⟨1, ![64]⟩ : Shape).Idx → EReal) :
    (⟨2, ![100000, 64]⟩ : Shape).Idx → EReal :=
  fun i => headAt a b w c (i 0) (i 1)

theorem head_apply (a : (⟨2, ![100000, 64]⟩ : Shape).Idx → EReal) (b : (⟨1, ![64]⟩ : Shape).Idx → EReal)
    (w : (⟨2, ![64, 64]⟩ : Shape).Idx → EReal) (c : (⟨1, ![64]⟩ : Shape).Idx → EReal) (p : Fin 100000) (q : Fin 64) :
    head a b w c (ix2 p q) = headAt a b w c p q := rfl

end Cert.Encoder

end
-- ==== Proof.Region0.lean ====
/-
  The first pallas_call's output array, whole: x · W1ᵀ of the arrays the region finds.

  The grid has ten points. Point t stages rows 10000·t … 10000·t + 9999 of x, the whole weight, and writes back rows
  10000·t … 10000·t + 9999 of the output; the body stores the product of the x block with the transposed weight. So
  what point t writes back is block t of ONE array, `Cert.Encoder.lin` of the two argument arrays, and the ten blocks
  cover the output: the array ends holding it.
-/
import proofs.«127251_j34497177322134_1_alg».proof.Proof.Gen.KernelIdeal.Frame
import proofs.«127251_j34497177322134_1_alg».proof.Proof.Payload
import proofs.«127251_j34497177322134_1_alg».proof.Proof.Spec
import Idealize.ShloMosaic.Lib.Pipeline.Value
import Idealize.ShloMosaic.Lib.ValueIdx

set_option maxRecDepth 16384

noncomputable section

namespace Cert.KernelIdeal.Region0

open Cert.KernelIdeal Cert.KernelIdeal.Gen Cert.KernelIdeal.Body Idealize.ShloMosaic Idealize.ShloMosaic.TcCoe Idealize.SL.Sem
open Idealize.ShloMosaic.ValueIdx
open Idealize.ShloMosaic.Pipeline (Dat)
open scoped BigOperators

-- The buffer contents when the region is entered: every statement here holds for any such contents.
variable (V : (c : Dev nD) → (b : Ref sig .tc) → Buf (Elt Ideal) ((c : Thread nD τ).loc b))

/-- Point t's block of x, of the weight, and the two arrays as the region finds them, each at its literal type. -/
abbrev xblk (c : Dev nD) (t : Fin cfg0.N) : Vec Ideal S10000x128 .f32 := iblk0 V c 0 t
abbrev wblk (c : Dev nD) (t : Fin cfg0.N) : Vec Ideal S64x128 .f32 := iblk0 V c 1 t
abbrev xarr (c : Dev nD) : Vec Ideal S100000x128 .f32 := V c main_arg0
abbrev warr (c : Dev nD) : Vec Ideal S64x128 .f32 := V c main_arg2

theorem zero_offsets2 : (![0, 0] : Fin 2 → Nat) = fun _ => 0 := funext fun a => by fin_cases a <;> rfl

/-- The printed index maps over the ten points: the x block and the output block sit at block row t, column block 0;
    the weight's one block at (0, 0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of x · W1ᵀ. Entry (p, q) of the stored block is the sum over k of the x block
    at (p, k) times the weight block at (q, k); the x block's row p is the array's row 10000·t + p, which is also the
    row of the output block's entry, and the weight block is the weight. -/
theorem written_back (c : Dev nD) (t : Fin cfg0.N) :
    (dat0 (F := Ideal) V c).flushed 2 t
      = ((cfg0.win 2).blk t).view.read (Elt Ideal) (Cert.Encoder.lin (xarr V c) (warr V c)) := by
  show (cfg0.win 2).cut (grid0.coords t) ((dat0 V c).after 2 t) = _
  rw [after0_2]
  unfold out0_2
  rw [View.canon_unit_zero zero_offsets2]
  simp only [View.ld_unit_zero (S := S10000x128) zero_offsets2, View.ld_unit_zero (S := S64x128) zero_offsets2]
  obtain ⟨e0, e1, e2, e3, e4, e5⟩ := index_maps t
  funext j
  refine ((congrArg (k0_pay1 (F := Ideal) (xblk V c t) (wblk V c t)) (eq_ix2 j)).trans
    (linear_block_apply (xblk V c t) (wblk V c t) (j 0) (j 1))).trans ?_
  show (∑ k : Fin 128, xblk V c t (ix2 (j 0) k) * wblk V c t (ix2 (j 1) k))
    = ∑ k : Fin 128, xarr V c (ix2 (n0 := 100000) (n1 := 128) ((((cfg0.win 2).blk t).view.emb j) 0) k)
        * warr V c (ix2 (n0 := 64) (n1 := 128) ((((cfg0.win 2).blk t).view.emb j) 1) k)
  refine Finset.sum_congr rfl fun k _ => ?_
  have hx : xblk V c t (ix2 (j 0) k)
      = xarr V c (ix2 (n0 := 100000) (n1 := 128) ((((cfg0.win 2).blk t).view.emb j) 0) k) := by
    show xarr V c (((cfg0.win 0).blk t).view.emb (ix2 (j 0) k)) = _
    refine congrArg (xarr V c) (funext fun a => Fin.ext ?_)
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 128 + 1 * k.val = k.val
      omega
  have hw : wblk V c t (ix2 (j 1) k)
      = warr V c (ix2 (n0 := 64) (n1 := 128) ((((cfg0.win 2).blk t).view.emb j) 1) k) := by
    show warr V c (((cfg0.win 1).blk t).view.emb (ix2 (j 1) k)) = _
    refine congrArg (warr V c) (funext fun a => Fin.ext ?_)
    match a with
    | ⟨0, _⟩ =>
      show win0_1.index t (0 : Fin 2) * 64 + 1 * (j 1).val = win0_2.index t (1 : Fin 2) * 64 + 1 * (j 1).val
      omega
    | ⟨1, _⟩ =>
      show win0_1.index t (1 : Fin 2) * 128 + 1 * k.val = k.val
      omega
  rw [hx, hw]

/-- An index of the output array is in point t's block iff each coordinate is in the block's range on its axis. -/
theorem mem_block (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v30).slice (win0_2.rect t)).set ↔ _
  rw [View.set_slice_whole, Rect.mem_set_unit]
  exact Iff.rfl

/-- Every row r of the output is in the block of point r / 10000. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, by show _ < grid0.N; rw [N_0]; omega⟩, rfl⟩
  obtain ⟨e0, e1, e2, e3, e4, e5⟩ := index_maps t
  refine ⟨t, flush0_2 t, ?_⟩
  rw [mem_block]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- The output array after the region: x · W1ᵀ of the arrays the region finds. -/
theorem array_eq (c : Dev nD) :
    (dat0 (F := Ideal) V c).arrAt 2 cfg0.N = Cert.Encoder.lin (xarr V c) (warr V c) :=
  (dat0 (F := Ideal) V c).arrAt_eq_of_cover 2 (Cert.Encoder.lin (xarr V c) (warr V c))
    (fun t _ => written_back V c t) covered

end Cert.KernelIdeal.Region0

end
-- ==== Proof.Region1.lean ====
/-
  The second pallas_call's two output arrays, whole: each is a head of the arrays the region finds.

  The grid has ten points. Point t stages rows 10000·t … 10000·t + 9999 of the neighbourhood sum, the whole of the
  three bias rows and of the two 64 × 64 weights, and writes back rows 10000·t … 10000·t + 9999 of both outputs. The
  body adds the first bias row, takes the maximum with zero, multiplies by a transposed weight and adds that head's
  bias row. So what point t writes back is block t of ONE array per output, `Cert.Encoder.head` of the region's
  arrays, and the ten blocks cover each output.
-/
import proofs.«127251_j34497177322134_1_alg».proof.Proof.Gen.KernelIdeal.Frame
import proofs.«127251_j34497177322134_1_alg».proof.Proof.Payload
import proofs.«127251_j34497177322134_1_alg».proof.Proof.Spec
import Idealize.ShloMosaic.Lib.Pipeline.Value
import Idealize.ShloMosaic.Lib.ValueIdx

set_option maxRecDepth 16384

noncomputable section

namespace Cert.KernelIdeal.Region1

open Cert.KernelIdeal Cert.KernelIdeal.Gen Cert.KernelIdeal.Body Idealize.ShloMosaic Idealize.ShloMosaic.TcCoe Idealize.SL.Sem
open Idealize.ShloMosaic.ValueIdx
open Idealize.ShloMosaic.Pipeline (Dat)
open scoped BigOperators

-- The buffer contents when the region is entered: every statement here holds for any such contents.
variable (V : (c : Dev nD) → (b : Ref sig .tc) → Buf (Elt Ideal) ((c : Thread nD τ).loc b))

/-- Point t's block of each window and the arrays as the region finds them, each at its literal type. -/
abbrev ablk (c : Dev nD) (t : Fin cfg1.N) : Vec Ideal S10000x64 .f32 := iblk1 V c 0 t
abbrev b1blk (c : Dev nD) (t : Fin cfg1.N) : Vec Ideal S64 .f32 := iblk1 V c 1 t
abbrev wmublk (c : Dev nD) (t : Fin cfg1.N) : Vec Ideal S64x64 .f32 := iblk1 V c 2 t
abbrev bmublk (c : Dev nD) (t : Fin cfg1.N) : Vec Ideal S64 .f32 := iblk1 V c 3 t
abbrev wlvblk (c : Dev nD) (t : Fin cfg1.N) : Vec Ideal S64x64 .f32 := iblk1 V c 4 t
abbrev blvblk (c : Dev nD) (t : Fin cfg1.N) : Vec Ideal S64 .f32 := iblk1 V c 5 t
abbrev aarr (c : Dev nD) : Vec Ideal S100000x64 .f32 := V c main_v43
abbrev b1arr (c : Dev nD) : Vec Ideal S64 .f32 := V c main_arg3
abbrev wmuarr (c : Dev nD) : Vec Ideal S64x64 .f32 := V c main_arg4
abbrev bmuarr (c : Dev nD) : Vec Ideal S64 .f32 := V c main_arg5
abbrev wlvarr (c : Dev nD) : Vec Ideal S64x64 .f32 := V c main_arg6
abbrev blvarr (c : Dev nD) : Vec Ideal S64 .f32 := V c main_arg7

theorem zero_offsets2 : (![0, 0] : Fin 2 → Nat) = fun _ => 0 := funext fun a => by fin_cases a <;> rfl
theorem zero_offsets1 : (![0] : Fin 1 → Nat) = fun _ => 0 := funext fun a => by fin_cases a; rfl

/-- The printed index maps over the ten points: the neighbourhood sum's block and both output blocks sit at block
    row t, column block 0; every bias row and weight has its one block at the origin. -/
theorem index_maps : ∀ t : Fin cfg1.N,
    win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-! ## Each staged block read where its array holds it -/

theorem ablk_apply (c : Dev nD) (t : Fin cfg1.N) (p : Fin 10000) (k : Fin 64) (r : Fin 100000)
    (hr : r.val = t.val * 10000 + p.val) : ablk V c t (ix2 p k) = aarr V c (ix2 r k) := by
  obtain ⟨e0a, e0b, -, -, -, -, -, -, -, -, -, -, -⟩ := index_maps t
  show aarr V c (((cfg1.win 0).blk t).view.emb (ix2 p k)) = _
  refine congrArg (aarr V c) (funext fun a => Fin.ext ?_)
  match a with
  | ⟨0, _⟩ =>
    show win1_0.index t (0 : Fin 2) * 10000 + 1 * p.val = r.val
    omega
  | ⟨1, _⟩ =>
    show win1_0.index t (1 : Fin 2) * 64 + 1 * k.val = k.val
    omega

theorem b1blk_apply (c : Dev nD) (t : Fin cfg1.N) (k : Fin 64) : b1blk V c t (ix1 k) = b1arr V c (ix1 k) := by
  obtain ⟨-, -, e1, -, -, -, -, -, -, -, -, -, -⟩ := index_maps t
  show b1arr V c (((cfg1.win 1).blk t).view.emb (ix1 k)) = _
  refine congrArg (b1arr V c) (funext fun a => Fin.ext ?_)
  match a with
  | ⟨0, _⟩ =>
    show win1_1.index t (0 : Fin 1) * 64 + 1 * k.val = k.val
    omega

theorem wmublk_apply (c : Dev nD) (t : Fin cfg1.N) (q k q' : Fin 64) (hq : q'.val = q.val) :
    wmublk V c t (ix2 q k) = wmuarr V c (ix2 q' k) := by
  obtain ⟨-, -, -, e2a, e2b, -, e4a, e4b, -, -, -, -, -⟩ := index_maps t
  show wmuarr V c (((cfg1.win 2).blk t).view.emb (ix2 q k)) = _
  refine congrArg (wmuarr V c) (funext fun a => Fin.ext ?_)
  match a with
  | ⟨0, _⟩ =>
    show win1_2.index t (0 : Fin 2) * 64 + 1 * q.val = q'.val
    omega
  | ⟨1, _⟩ =>
    show win1_2.index t (1 : Fin 2) * 64 + 1 * k.val = k.val
    omega

theorem bmublk_apply (c : Dev nD) (t : Fin cfg1.N) (q q' : Fin 64) (hq : q'.val = q.val) :
    bmublk V c t (ix1 q) = bmuarr V c (ix1 q') := by
  obtain ⟨-, -, e1, -, -, e3, -, -, e5, -, -, -, -⟩ := index_maps t
  show bmuarr V c (((cfg1.win 3).blk t).view.emb (ix1 q)) = _
  refine congrArg (bmuarr V c) (funext fun a => Fin.ext ?_)
  match a with
  | ⟨0, _⟩ =>
    show win1_3.index t (0 : Fin 1) * 64 + 1 * q.val = q'.val
    omega

theorem wlvblk_apply (c : Dev nD) (t : Fin cfg1.N) (q k q' : Fin 64) (hq : q'.val = q.val) :
    wlvblk V c t (ix2 q k) = wlvarr V c (ix2 q' k) := by
  obtain ⟨-, -, -, e2a, e2b, -, e4a, e4b, -, -, -, -, -⟩ := index_maps t
  show wlvarr V c (((cfg1.win 4).blk t).view.emb (ix2 q k)) = _
  refine congrArg (wlvarr V c) (funext fun a => Fin.ext ?_)
  match a with
  | ⟨0, _⟩ =>
    show win1_4.index t (0 : Fin 2) * 64 + 1 * q.val = q'.val
    omega
  | ⟨1, _⟩ =>
    show win1_4.index t (1 : Fin 2) * 64 + 1 * k.val = k.val
    omega

theorem blvblk_apply (c : Dev nD) (t : Fin cfg1.N) (q q' : Fin 64) (hq : q'.val = q.val) :
    blvblk V c t (ix1 q) = blvarr V c (ix1 q') := by
  obtain ⟨-, -, e1, -, -, e3, -, -, e5, -, -, -, -⟩ := index_maps t
  show blvarr V c (((cfg1.win 5).blk t).view.emb (ix1 q)) = _
  refine congrArg (blvarr V c) (funext fun a => Fin.ext ?_)
  match a with
  | ⟨0, _⟩ =>
    show win1_5.index t (0 : Fin 1) * 64 + 1 * q.val = q'.val
    omega

/-! ## The first output -/

/-- What point t writes back to the first output is block t of the head of the arrays the region finds: entry (p, q)
    of the stored block is the rectified row p of the block against row q of the weight plus the bias at q, the
    block's row p being the array's row 10000·t + p, which is the row of the output block's entry. -/
theorem written_back6 (c : Dev nD) (t : Fin cfg1.N) :
    (dat1 (F := Ideal) V c).flushed 6 t
      = ((cfg1.win 6).blk t).view.read (Elt Ideal)
          (Cert.Encoder.head (aarr V c) (b1arr V c) (wmuarr V c) (bmuarr V c)) := by
  show (cfg1.win 6).cut (grid1.coords t) ((dat1 V c).after 6 t) = _
  rw [after1_6]
  unfold out1_6
  rw [View.canon_unit_zero zero_offsets2]
  simp only [View.ld_unit_zero (S := S10000x64) zero_offsets2, View.ld_unit_zero (S := S64) zero_offsets1,
    View.ld_unit_zero (S := S64x64) zero_offsets2]
  obtain ⟨-, -, -, -, -, -, -, -, -, e6a, e6b, e7a, e7b⟩ := index_maps t
  funext j
  have hr : ((((cfg1.win 6).blk t).view.emb j) 0).val = t.val * 10000 + (j 0).val := by
    show win1_6.index t (0 : Fin 2) * 10000 + 1 * (j 0).val = _
    omega
  have hq : ((((cfg1.win 6).blk t).view.emb j) 1).val = (j 1).val := by
    show win1_6.index t (1 : Fin 2) * 64 + 1 * (j 1).val = _
    omega
  refine ((congrArg (k1_pay2 (F := Ideal) (ablk V c t) (b1blk V c t) (wmublk V c t) (bmublk V c t)) (eq_ix2 j)).trans
    (head_block_apply (ablk V c t) (b1blk V c t) (wmublk V c t) (bmublk V c t) (j 0) (j 1))).trans ?_
  show (∑ k : Fin 64, max (ablk V c t (ix2 (j 0) k) + b1blk V c t (ix1 k)) (Ideal.ofBits .f32 0x00000000#32)
        * wmublk V c t (ix2 (j 1) k)) + bmublk V c t (ix1 (j 1))
    = (∑ k : Fin 64, max (aarr V c (ix2 (n0 := 100000) (n1 := 64) ((((cfg1.win 6).blk t).view.emb j) 0) k) + b1arr V c (ix1 k))
          (Ideal.ofBits .f32 0x00000000#32)
        * wmuarr V c (ix2 (n0 := 64) (n1 := 64) ((((cfg1.win 6).blk t).view.emb j) 1) k))
      + bmuarr V c (ix1 (n := 64) ((((cfg1.win 6).blk t).view.emb j) 1))
  refine congrArg₂ (fun a b => a + b) (Finset.sum_congr rfl fun k _ => ?_) (bmublk_apply V c t (j 1) _ hq)
  exact congrArg₂ (fun a b => a * b)
    (congrArg₂ (fun a b => max a b)
      (congrArg₂ (fun a b => a + b) (ablk_apply V c t (j 0) k _ hr) (b1blk_apply V c t k)) rfl)
    (wmublk_apply V c t (j 1) k _ hq)

/-- An index of the first output is in point t's block iff each coordinate is in the block's range on its axis. -/
theorem mem_block6 (t : Fin cfg1.N) (i : S100000x64.Idx) :
    i ∈ ((cfg1.win 6).blk t).view.set ↔ ∀ a : Fin 2, win1_6.index t a * S10000x64.size a ≤ (i a).val
      ∧ (i a).val < win1_6.index t a * S10000x64.size a + S10000x64.size a := by
  show i ∈ ((View.whole main_v44_0).slice (win1_6.rect t)).set ↔ _
  rw [View.set_slice_whole, Rect.mem_set_unit]
  exact Iff.rfl

/-- Every row r of the first output is in the block of point r / 10000. -/
theorem covered6 (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, ht⟩ : ∃ t : Fin cfg1.N, t.val = (i 0).val / 10000 :=
    ⟨⟨(i 0).val / 10000, by show _ < grid1.N; rw [N_1]; omega⟩, rfl⟩
  obtain ⟨-, -, -, -, -, -, -, -, -, e6a, e6b, e7a, e7b⟩ := index_maps t
  refine ⟨t, flush1_6 t, ?_⟩
  rw [mem_block6]
  intro a
  match a with
  | ⟨0, _⟩ =>
    show win1_6.index t (0 : Fin 2) * 10000 ≤ (i 0).val ∧ (i 0).val < win1_6.index t (0 : Fin 2) * 10000 + 10000
    omega
  | ⟨1, _⟩ =>
    show win1_6.index t (1 : Fin 2) * 64 ≤ (i 1).val ∧ (i 1).val < win1_6.index t (1 : Fin 2) * 64 + 64
    omega

/-- The first output array after the region: the head of the arrays the region finds. -/
theorem array6_eq (c : Dev nD) :
    (dat1 (F := Ideal) V c).arrAt 6 cfg1.N = Cert.Encoder.head (aarr V c) (b1arr V c) (wmuarr V c) (bmuarr V c) :=
  (dat1 (F := Ideal) V c).arrAt_eq_of_cover 6 (Cert.Encoder.head (aarr V c) (b1arr V c) (wmuarr V c) (bmuarr V c))
    (fun t _ => written_back6 V c t) covered6

/-! ## The second output -/

/-- What point t writes back to the second output is block t of the head of the arrays the region finds: entry (p, q)
    of the stored block is the rectified row p of the block against row q of the weight plus the bias at q, the
    block's row p being the array's row 10000·t + p, which is the row of the output block's entry. -/
theorem written_back7 (c : Dev nD) (t : Fin cfg1.N) :
    (dat1 (F := Ideal) V c).flushed 7 t
      = ((cfg1.win 7).blk t).view.read (Elt Ideal)
          (Cert.Encoder.head (aarr V c) (b1arr V c) (wlvarr V c) (blvarr V c)) := by
  show (cfg1.win 7).cut (grid1.coords t) ((dat1 V c).after 7 t) = _
  rw [after1_7]
  unfold out1_7
  rw [View.canon_unit_zero zero_offsets2]
  simp only [View.ld_unit_zero (S := S10000x64) zero_offsets2, View.ld_unit_zero (S := S64) zero_offsets1,
    View.ld_unit_zero (S := S64x64) zero_offsets2]
  obtain ⟨-, -, -, -, -, -, -, -, -, e6a, e6b, e7a, e7b⟩ := index_maps t
  funext j
  have hr : ((((cfg1.win 7).blk t).view.emb j) 0).val = t.val * 10000 + (j 0).val := by
    show win1_7.index t (0 : Fin 2) * 10000 + 1 * (j 0).val = _
    omega
  have hq : ((((cfg1.win 7).blk t).view.emb j) 1).val = (j 1).val := by
    show win1_7.index t (1 : Fin 2) * 64 + 1 * (j 1).val = _
    omega
  refine ((congrArg (k1_pay2 (F := Ideal) (ablk V c t) (b1blk V c t) (wlvblk V c t) (blvblk V c t)) (eq_ix2 j)).trans
    (head_block_apply (ablk V c t) (b1blk V c t) (wlvblk V c t) (blvblk V c t) (j 0) (j 1))).trans ?_
  show (∑ k : Fin 64, max (ablk V c t (ix2 (j 0) k) + b1blk V c t (ix1 k)) (Ideal.ofBits .f32 0x00000000#32)
        * wlvblk V c t (ix2 (j 1) k)) + blvblk V c t (ix1 (j 1))
    = (∑ k : Fin 64, max (aarr V c (ix2 (n0 := 100000) (n1 := 64) ((((cfg1.win 7).blk t).view.emb j) 0) k) + b1arr V c (ix1 k))
          (Ideal.ofBits .f32 0x00000000#32)
        * wlvarr V c (ix2 (n0 := 64) (n1 := 64) ((((cfg1.win 7).blk t).view.emb j) 1) k))
      + blvarr V c (ix1 (n := 64) ((((cfg1.win 7).blk t).view.emb j) 1))
  refine congrArg₂ (fun a b => a + b) (Finset.sum_congr rfl fun k _ => ?_) (blvblk_apply V c t (j 1) _ hq)
  exact congrArg₂ (fun a b => a * b)
    (congrArg₂ (fun a b => max a b)
      (congrArg₂ (fun a b => a + b) (ablk_apply V c t (j 0) k _ hr) (b1blk_apply V c t k)) rfl)
    (wlvblk_apply V c t (j 1) k _ hq)

/-- An index of the second output is in point t's block iff each coordinate is in the block's range on its axis. -/
theorem mem_block7 (t : Fin cfg1.N) (i : S100000x64.Idx) :
    i ∈ ((cfg1.win 7).blk t).view.set ↔ ∀ a : Fin 2, win1_7.index t a * S10000x64.size a ≤ (i a).val
      ∧ (i a).val < win1_7.index t a * S10000x64.size a + S10000x64.size a := by
  show i ∈ ((View.whole main_v44_1).slice (win1_7.rect t)).set ↔ _
  rw [View.set_slice_whole, Rect.mem_set_unit]
  exact Iff.rfl

/-- Every row r of the second output is in the block of point r / 10000. -/
theorem covered7 (i : S100000x64.Idx) :
    ∃ t : Fin cfg1.N, (cfg1.win 7).flush t = true ∧ i ∈ ((cfg1.win 7).blk t).view.set := by
  have hi0 : (i 0).val < 100000 := (i 0).isLt
  have hi1 : (i 1).val < 64 := (i 1).isLt
  obtain ⟨t, ht⟩ : ∃ t : Fin cfg1.N, t.val = (i 0).val / 10000 :=
    ⟨⟨(i 0).val / 10000, by show _ < grid1.N; rw [N_1]; omega⟩, rfl⟩
  obtain ⟨-, -, -, -, -, -, -, -, -, e6a, e6b, e7a, e7b⟩ := index_maps t
  refine ⟨t, flush1_7 t, ?_⟩
  rw [mem_block7]
  intro a
  match a with
  | ⟨0, _⟩ =>
    show win1_7.index t (0 : Fin 2) * 10000 ≤ (i 0).val ∧ (i 0).val < win1_7.index t (0 : Fin 2) * 10000 + 10000
    omega
  | ⟨1, _⟩ =>
    show win1_7.index t (1 : Fin 2) * 64 ≤ (i 1).val ∧ (i 1).val < win1_7.index t (1 : Fin 2) * 64 + 64
    omega

/-- The second output array after the region: the head of the arrays the region finds. -/
theorem array7_eq (c : Dev nD) :
    (dat1 (F := Ideal) V c).arrAt 7 cfg1.N = Cert.Encoder.head (aarr V c) (b1arr V c) (wlvarr V c) (blvarr V c) :=
  (dat1 (F := Ideal) V c).arrAt_eq_of_cover 7 (Cert.Encoder.head (aarr V c) (b1arr V c) (wlvarr V c) (blvarr V c))
    (fun t _ => written_back7 V c t) covered7

end Cert.KernelIdeal.Region1

end
-- ==== Proof.RefSpec.lean ====
/-
  The reference's two results as the specification's functions.

  The reference computes x · W1ᵀ by one `dot_general` of x with the transposed weight, and each head by a
  `dot_general` of the rectified array with a transposed 64 × 64 weight plus a bias row. Read at an index each product
  is the plain sum over the contracted coordinate. Between them stands the normalised neighbourhood sum — a gather of
  rows, a scaling and a scatter-add, all driven by the edge list —, which is named here as ONE function `aggOf` of the
  array it gathers from and of the edge list, and is never opened.
-/
import proofs.«127251_j34497177322134_1_alg».proof.Proof.RefRead
import proofs.«127251_j34497177322134_1_alg».proof.Proof.LibDotPlain
import proofs.«127251_j34497177322134_1_alg».proof.Proof.Spec
import Idealize.ShloMosaic.Lib.ValueLayout

set_option maxRecDepth 16384

noncomputable section

namespace Cert.ReferenceIdeal.Bridge

open Cert.ReferenceIdeal Cert.ReferenceIdeal.Gen Cert.ReferenceIdeal.ReadP Idealize.ShloMosaic Idealize.ShloMosaic.ValueIdx
open scoped BigOperators

/-! ## The first product -/

/-- The reference's x · W1ᵀ is the specification's `lin`: at (p, q) the sum over k of x (p, k) times the transposed
    weight at (k, q), which is the weight at (q, k). -/
theorem product_eq (x0 : FVec Ideal S100000x128 .f32) (x2 : FVec Ideal S64x128 .f32) :
    val_main_v31 (F := Ideal) x0 x2 = Cert.Encoder.lin x0 x2 := by
  funext i
  obtain ⟨p, q, rfl⟩ : ∃ (p : Fin 100000) (q : Fin 64), i = ix2 p q := ⟨i 0, i 1, eq_ix2 i⟩
  unfold val_main_v31
  refine (Cert.DotPlain.dotGeneral_rows_cols (φ₁ := .f32) (φ₂ := .f32) dot_S100000x128_S128x64_S100000x64_1_0_0_1_n_n rfl rfl rfl rfl rfl rfl
    none _ x0 (val_main_v30 (F := Ideal) x2) p q).trans ?_
  show (∑ k : Fin 128, x0 (ix2 p k) * val_main_v30 (F := Ideal) x2 (ix2 k q)) = ∑ k : Fin 128, x0 (ix2 p k) * x2 (ix2 q k)
  refine Finset.sum_congr rfl fun k _ => ?_
  exact congrArg (fun z => x0 (ix2 p k) * z) (transpose_ix2_apply x2 transposes_S64x128_S128x64_1_0 k q)

/-! ## A head: rectify, multiply, add the bias -/

/-- The operations of one head applied to any array `a`: add the bias row, take the maximum with zero, multiply by
    the transposed weight, add the second bias row. -/
def headOps (a : FVec Ideal S100000x64 .f32) (x3 : FVec Ideal S64 .f32)
    (x4 : FVec Ideal S64x64 .f32) (x5 : FVec Ideal S64 .f32) :
    FVec Ideal S100000x64 .f32 :=
  addf (F := Ideal) (Host.dotGeneral (F := Ideal) (φ₁ := .f32) (φ₂ := .f32) dot_S100000x64_S64x64_S100000x64_1_0_0_1_n_n none
      (maximumf (F := Ideal) (addf (F := Ideal) a (val_main_v46 (F := Ideal) x3)) (val_main_call1_v0 (F := Ideal))) (val_main_v49 (F := Ideal) x4))
    (val_main_v52 (F := Ideal) x5)

/-- A bias row broadcast over the rows reads, at (p, k), the bias at k. -/
theorem bias_rows_apply (x3 : FVec Ideal S64 .f32) (p : Fin 100000) (k : Fin 64) :
    val_main_v46 (F := Ideal) x3 (ix2 p k) = x3 (ix1 k) :=
  (val_main_v46_apply (F := Ideal) x3 (ix2 p k)).trans ((val_main_v45_apply (F := Ideal) x3 _).trans
    (congrArg x3 (funext fun a => match a with | ⟨0, _⟩ => rfl)))

/-- The second bias row, likewise. -/
theorem bias_rows_apply' (x5 : FVec Ideal S64 .f32) (p : Fin 100000) (q : Fin 64) :
    val_main_v52 (F := Ideal) x5 (ix2 p q) = x5 (ix1 q) :=
  (val_main_v52_apply (F := Ideal) x5 (ix2 p q)).trans ((val_main_v51_apply (F := Ideal) x5 _).trans
    (congrArg x5 (funext fun a => match a with | ⟨0, _⟩ => rfl)))

/-- The array of zeros the maximum is taken with reads the zero word everywhere. -/
theorem zeros_apply (i : S100000x64.Idx) :
    val_main_call1_v0 (F := Ideal) i = Ideal.ofBits .f32 0x00000000#32 :=
  (val_main_call1_v0_apply (F := Ideal) i).trans (val_main_call1_cst_apply (F := Ideal) _)

/-- The transposed head weight at (k, q) is the weight at (q, k). -/
theorem weightT_apply (x4 : FVec Ideal S64x64 .f32) (k q : Fin 64) :
    val_main_v49 (F := Ideal) x4 (ix2 k q) = x4 (ix2 q k) :=
  transpose_ix2_apply x4 transposes_S64x64_S64x64_1_0 k q

/-- One head's operations are the specification's `head`. -/
theorem headOps_eq (a : FVec Ideal S100000x64 .f32) (x3 : FVec Ideal S64 .f32)
    (x4 : FVec Ideal S64x64 .f32) (x5 : FVec Ideal S64 .f32) :
    headOps a x3 x4 x5 = Cert.Encoder.head a x3 x4 x5 := by
  funext i
  obtain ⟨p, q, rfl⟩ : ∃ (p : Fin 100000) (q : Fin 64), i = ix2 p q := ⟨i 0, i 1, eq_ix2 i⟩
  have h1 : Host.dotGeneral (F := Ideal) (φ₁ := .f32) (φ₂ := .f32) dot_S100000x64_S64x64_S100000x64_1_0_0_1_n_n none
        (maximumf (F := Ideal) (addf (F := Ideal) a (val_main_v46 (F := Ideal) x3)) (val_main_call1_v0 (F := Ideal))) (val_main_v49 (F := Ideal) x4) (ix2 p q)
      = ∑ k : Fin 64, max (a (ix2 p k) + x3 (ix1 k)) (Ideal.ofBits .f32 0x00000000#32) * x4 (ix2 q k) := by
    refine (Cert.DotPlain.dotGeneral_rows_cols (φ₁ := .f32) (φ₂ := .f32) dot_S100000x64_S64x64_S100000x64_1_0_0_1_n_n rfl rfl rfl rfl rfl rfl
      none _ _ _ p q).trans ?_
    refine Finset.sum_congr rfl fun k _ => ?_
    show max (a (ix2 p k) + val_main_v46 (F := Ideal) x3 (ix2 p k)) (val_main_call1_v0 (F := Ideal) (ix2 p k))
        * val_main_v49 (F := Ideal) x4 (ix2 k q) = _
    rw [bias_rows_apply x3 p k, zeros_apply, weightT_apply x4 k q]
  unfold headOps
  show Host.dotGeneral (F := Ideal) (φ₁ := .f32) (φ₂ := .f32) dot_S100000x64_S64x64_S100000x64_1_0_0_1_n_n none
        (maximumf (F := Ideal) (addf (F := Ideal) a (val_main_v46 (F := Ideal) x3)) (val_main_call1_v0 (F := Ideal))) (val_main_v49 (F := Ideal) x4) (ix2 p q)
      + val_main_v52 (F := Ideal) x5 (ix2 p q) = _
  rw [h1, bias_rows_apply' x5 p q]
  rfl

/-! ## The neighbourhood sum, unopened -/

/-- The normalised neighbourhood sum of the rows of `h`, as the reference spells it: gather the rows at the source
    nodes, scale each by its edge's coefficient, scatter-add them at the target nodes. -/
def aggOf {F : FTy → Type} [FloatOps F] (h : FVec F S100000x64 .f32) (x1 : (⟨S2x1000000, .i32⟩ : BufTy).Contents (Elt F)) :
    FVec F S100000x64 .f32 :=
  Host.scatterAdd (F := F) scatter_S100000x64_S1100000x1_S1100000x64_1_0_0_1 (val_main_v42 (F := F)) (val_main_v43 (F := F) x1)
    (mulf (F := F) (Host.gather gather_S100000x64_S1100000x1_S1100000x64_1_0_n_n_0_1_164 h (val_main_v37 (F := F) x1))
      (val_main_v40 (F := F) x1))

/-- The reference's sum is `aggOf` of its first product. -/
theorem agg_eq (x0 : FVec Ideal S100000x128 .f32) (x1 : (⟨S2x1000000, .i32⟩ : BufTy).Contents (Elt Ideal))
    (x2 : FVec Ideal S64x128 .f32) :
    val_main_v44 (F := Ideal) x0 x1 x2 = aggOf (val_main_v31 (F := Ideal) x0 x2) x1 := rfl

/-! ## The two results -/

/-- The reference's first result: the mean head of the neighbourhood sum of x · W1ᵀ. -/
theorem result0_eq (x0 : FVec Ideal S100000x128 .f32) (x1 : (⟨S2x1000000, .i32⟩ : BufTy).Contents (Elt Ideal))
    (x2 : FVec Ideal S64x128 .f32) (x3 : FVec Ideal S64 .f32)
    (x4 : FVec Ideal S64x64 .f32) (x5 : FVec Ideal S64 .f32) :
    val_main_v53 (F := Ideal) x0 x1 x2 x3 x4 x5
      = Cert.Encoder.head (aggOf (Cert.Encoder.lin x0 x2) x1) x3 x4 x5 := by
  rw [← product_eq x0 x2, ← headOps_eq]
  rfl

/-- The reference's second result: the same head of the other weight and bias. -/
theorem result1_eq (x0 : FVec Ideal S100000x128 .f32) (x1 : (⟨S2x1000000, .i32⟩ : BufTy).Contents (Elt Ideal))
    (x2 : FVec Ideal S64x128 .f32) (x3 : FVec Ideal S64 .f32)
    (x6 : FVec Ideal S64x64 .f32) (x7 : FVec Ideal S64 .f32) :
    val_main_v58 (F := Ideal) x0 x1 x2 x3 x6 x7
      = Cert.Encoder.head (aggOf (Cert.Encoder.lin x0 x2) x1) x3 x6 x7 := by
  rw [← product_eq x0 x2, ← headOps_eq]
  rfl

end Cert.ReferenceIdeal.Bridge

end
-- ==== Proof.HostStages.lean ====
/-
  The kernel program's four stretches of host operations, each read over an arbitrary valuation of the buffers.

  The stretches are: the operations before the `where` that guards the inverse square root of the degrees (sources,
  targets, degrees, the guard and the root); that `where` itself; the two gathers of the guarded root and their product
  (every edge's coefficient); and, between the two pallas_calls, the gather of rows, the scaling and the scatter-add.
  Each is the same sequence of operations the reference applies, so what it leaves in a buffer is the reference's own
  stage of the same inputs. Stating each stretch over an arbitrary valuation keeps every comparison to one stretch's
  operations; the float family is arbitrary, since nothing here computes with a float.
-/
import proofs.«127251_j34497177322134_1_alg».proof.Proof.Gen.KernelIdeal.Launch
import proofs.«127251_j34497177322134_1_alg».proof.Proof.RefSpec
import Idealize.ShloMosaic.Lib.StableHlo.Run

set_option maxRecDepth 16384

noncomputable section

namespace Cert.KernelIdeal.HostStages

open Cert.KernelIdeal Cert.KernelIdeal.Gen Idealize.ShloMosaic Idealize.ShloMosaic.TcCoe Idealize.SL.Sem
open Idealize.ShloMosaic.StableHlo
open Cert.ReferenceIdeal.Bridge (aggOf)

variable {F : FTy → Type} [FloatOps F]
variable (U : Valuation τ sig (Elt F))
variable (x1 : (⟨Cert.ReferenceIdeal.S2x1000000, .i32⟩ : BufTy).Contents (Elt F))

/-- The edge list in a valuation. -/
abbrev edgesIn : (⟨Cert.ReferenceIdeal.S2x1000000, .i32⟩ : BufTy).Contents (Elt F) := U (Proc.devRef .tc main_arg1)

/-! ## The first stretch: sources, targets, degrees, the guard and the root -/

theorem first_sources :
    StableHlo.after hostOps0 U (Proc.devRef .tc main_v3) = Cert.ReferenceIdeal.ReadP.val_main_v3 (F := F) (edgesIn U) := by
  dsimp only [hostOps0]
  after_results
  rfl

theorem first_targets :
    StableHlo.after hostOps0 U (Proc.devRef .tc main_v6) = Cert.ReferenceIdeal.ReadP.val_main_v6 (F := F) (edgesIn U) := by
  dsimp only [hostOps0]
  after_results
  rfl

theorem first_guard :
    StableHlo.after hostOps0 U (Proc.devRef .tc main_v12) = Cert.ReferenceIdeal.ReadP.val_main_v12 (F := F) (edgesIn U) := by
  dsimp only [hostOps0]
  after_results
  rfl

theorem first_root :
    StableHlo.after hostOps0 U (Proc.devRef .tc main_v13) = Cert.ReferenceIdeal.ReadP.val_main_v13 (F := F) (edgesIn U) := by
  dsimp only [hostOps0]
  after_results
  rfl

theorem first_zero :
    StableHlo.after hostOps0 U (Proc.devRef .tc main_cst_2) = Cert.ReferenceIdeal.ReadP.val_main_cst_2 (F := F) := by
  dsimp only [hostOps0]
  after_results
  rfl

/-! ## The second stretch: the guarded root -/

theorem second_guarded (h12 : U (Proc.devRef .tc main_v12) = Cert.ReferenceIdeal.ReadP.val_main_v12 (F := F) x1)
    (h13 : U (Proc.devRef .tc main_v13) = Cert.ReferenceIdeal.ReadP.val_main_v13 (F := F) x1)
    (hz : U (Proc.devRef .tc main_cst_2) = Cert.ReferenceIdeal.ReadP.val_main_cst_2 (F := F)) :
    StableHlo.after hostOps0_1 U (Proc.devRef .tc main_v14) = Cert.ReferenceIdeal.ReadP.val_main_v14 (F := F) x1 := by
  dsimp only [hostOps0_1]
  after_results
  rw [h12, h13, hz]
  rfl

theorem second_keeps_sources :
    StableHlo.after hostOps0_1 U (Proc.devRef .tc main_v3) = U (Proc.devRef .tc main_v3) := by
  dsimp only [hostOps0_1]
  after_results

theorem second_keeps_targets :
    StableHlo.after hostOps0_1 U (Proc.devRef .tc main_v6) = U (Proc.devRef .tc main_v6) := by
  dsimp only [hostOps0_1]
  after_results

/-! ## The third stretch: every edge's coefficient -/

set_option maxHeartbeats 400000 in
theorem third_coefficients (h3 : U (Proc.devRef .tc main_v3) = Cert.ReferenceIdeal.ReadP.val_main_v3 (F := F) x1)
    (h6 : U (Proc.devRef .tc main_v6) = Cert.ReferenceIdeal.ReadP.val_main_v6 (F := F) x1)
    (h14 : U (Proc.devRef .tc main_v14) = Cert.ReferenceIdeal.ReadP.val_main_v14 (F := F) x1) :
    StableHlo.after hostOps0_2 U (Proc.devRef .tc main_v29) = Cert.ReferenceIdeal.ReadP.val_main_v29 (F := F) x1 := by
  dsimp only [hostOps0_2]
  after_results_simp
  rw [h3, h6, h14]
  rfl

theorem third_keeps_sources :
    StableHlo.after hostOps0_2 U (Proc.devRef .tc main_v3) = U (Proc.devRef .tc main_v3) := by
  dsimp only [hostOps0_2]
  after_results

theorem third_keeps_targets :
    StableHlo.after hostOps0_2 U (Proc.devRef .tc main_v6) = U (Proc.devRef .tc main_v6) := by
  dsimp only [hostOps0_2]
  after_results

/-! ## The fourth stretch: the neighbourhood sum of what the first pallas_call left -/

set_option maxHeartbeats 400000 in
theorem fourth_sum (h3 : U (Proc.devRef .tc main_v3) = Cert.ReferenceIdeal.ReadP.val_main_v3 (F := F) x1)
    (h6 : U (Proc.devRef .tc main_v6) = Cert.ReferenceIdeal.ReadP.val_main_v6 (F := F) x1)
    (h29 : U (Proc.devRef .tc main_v29) = Cert.ReferenceIdeal.ReadP.val_main_v29 (F := F) x1) :
    StableHlo.after hostOps1 U (Proc.devRef .tc main_v43) = aggOf (F := F) (U (Proc.devRef .tc main_v30)) x1 := by
  dsimp only [hostOps1]
  after_results_simp
  rw [h3, h6, h29]
  rfl

end Cert.KernelIdeal.HostStages

end
-- ==== Proof.HostChain.lean ====
/-
  The kernel's program between its two pallas_calls, read back to the launch memory.

  Before the first call the host computes, from the edge list alone, the source and target node of every edge (with
  the self loops appended) and each edge's normalising coefficient; between the calls it gathers the rows of the first
  call's output at the sources, scales them and scatter-adds them at the targets. The reference applies the very same
  operations, so each of these values is stated as the reference's own stage of the edge list and the sum as the
  reference's `aggOf` of whatever array the first call left: nothing of the gather, the scatter or the normalisation is
  opened. With the two calls' arrays (x · W1ᵀ, and a head of what the second call finds) the two results are the
  specification's functions of the arguments.
-/
import proofs.«127251_j34497177322134_1_alg».proof.Proof.Gen.KernelIdeal.Frame
import proofs.«127251_j34497177322134_1_alg».proof.Proof.Region0
import proofs.«127251_j34497177322134_1_alg».proof.Proof.Region1
import proofs.«127251_j34497177322134_1_alg».proof.Proof.RefSpec
import proofs.«127251_j34497177322134_1_alg».proof.Proof.HostStages
import Idealize.ShloMosaic.Lib.StableHlo.Run

set_option maxRecDepth 16384

noncomputable section

namespace Cert.KernelIdeal.HostChain

open Cert.KernelIdeal Cert.KernelIdeal.Gen Idealize.ShloMosaic Idealize.ShloMosaic.TcCoe Idealize.SL.Sem
open Idealize.ShloMosaic.StableHlo
open Idealize.ShloMosaic.Pipeline (Dat)
open Cert.ReferenceIdeal.Bridge (aggOf)

variable (m : (ℓ : Loc nD τ sig) → Buf (Elt Ideal) ℓ) (ρ : Dev nD → PrngReg)

/-- The edge list as launched. -/
abbrev edges (c : Dev nD) : (⟨Cert.ReferenceIdeal.S2x1000000, .i32⟩ : BufTy).Contents (Elt Ideal) :=
  m ((c : Thread nD τ).loc main_arg1)

/-! ## Before the first call: what the host has computed from the edge list

Each fact is one stretch's lemma (over an arbitrary valuation) applied at the valuation the stretch starts from. -/

theorem sources_after_first (c : Dev nD) :
    W1 m ρ c (Proc.devRef .tc main_v3) = Cert.ReferenceIdeal.ReadP.val_main_v3 (F := Ideal) (edges m c) :=
  HostStages.first_sources (W0 m ρ c)

theorem targets_after_first (c : Dev nD) :
    W1 m ρ c (Proc.devRef .tc main_v6) = Cert.ReferenceIdeal.ReadP.val_main_v6 (F := Ideal) (edges m c) :=
  HostStages.first_targets (W0 m ρ c)

theorem sources_after_second (c : Dev nD) :
    W2 m ρ c (Proc.devRef .tc main_v3) = Cert.ReferenceIdeal.ReadP.val_main_v3 (F := Ideal) (edges m c) :=
  (HostStages.second_keeps_sources (W1 m ρ c)).trans (sources_after_first m ρ c)

theorem targets_after_second (c : Dev nD) :
    W2 m ρ c (Proc.devRef .tc main_v6) = Cert.ReferenceIdeal.ReadP.val_main_v6 (F := Ideal) (edges m c) :=
  (HostStages.second_keeps_targets (W1 m ρ c)).trans (targets_after_first m ρ c)

/-- The inverse square root of the degrees, zero where a degree is zero. -/
theorem guarded_after_second (c : Dev nD) :
    W2 m ρ c (Proc.devRef .tc main_v14) = Cert.ReferenceIdeal.ReadP.val_main_v14 (F := Ideal) (edges m c) :=
  HostStages.second_guarded (W1 m ρ c) (edges m c) (HostStages.first_guard (W0 m ρ c)) (HostStages.first_root (W0 m ρ c))
    (HostStages.first_zero (W0 m ρ c))

/-- The source node of every edge, self loops appended: the reference's stage of the edge list. -/
theorem sources_eq (c : Dev nD) :
    W3 m ρ c (Proc.devRef .tc main_v3) = Cert.ReferenceIdeal.ReadP.val_main_v3 (F := Ideal) (edges m c) :=
  (HostStages.third_keeps_sources (W2 m ρ c)).trans (sources_after_second m ρ c)

/-- The target node of every edge, likewise. -/
theorem targets_eq (c : Dev nD) :
    W3 m ρ c (Proc.devRef .tc main_v6) = Cert.ReferenceIdeal.ReadP.val_main_v6 (F := Ideal) (edges m c) :=
  (HostStages.third_keeps_targets (W2 m ρ c)).trans (targets_after_second m ρ c)

/-- Every edge's normalising coefficient, likewise. -/
theorem coefficients_eq (c : Dev nD) :
    W3 m ρ c (Proc.devRef .tc main_v29) = Cert.ReferenceIdeal.ReadP.val_main_v29 (F := Ideal) (edges m c) :=
  HostStages.third_coefficients (W2 m ρ c) (edges m c) (sources_after_second m ρ c) (targets_after_second m ρ c)
    (guarded_after_second m ρ c)

/-- The first call finds x as launched. -/
theorem x_at_linear (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  dsimp only [hostOps0, hostOps0_1, hostOps0_2]
  after_results

/-- The first call finds the first weight as launched. -/
theorem w1_at_linear (c : Dev nD) : V3 m ρ c main_arg2 = m ((c : Thread nD τ).loc main_arg2) := by
  show StableHlo.after hostOps0_2 (StableHlo.after hostOps0_1 (StableHlo.after hostOps0 (W0 m ρ c))) (Proc.devRef .tc main_arg2) = _
  dsimp only [hostOps0, hostOps0_1, hostOps0_2]
  after_results

/-! ## The first call's array -/

/-- After the first call its output array holds x · W1ᵀ of the launch arrays. -/
theorem linear_eq (c : Dev nD) :
    W4 m ρ c (Proc.devRef .tc main_v30)
      = Cert.Encoder.lin (m ((c : Thread nD τ).loc main_arg0)) (m ((c : Thread nD τ).loc main_arg2)) := by
  refine (W4_arr m ρ c 2).trans ((Cert.KernelIdeal.Region0.array_eq (V3 m ρ) c).trans ?_)
  show Cert.Encoder.lin (V3 m ρ c main_arg0) (V3 m ρ c main_arg2) = _
  rw [x_at_linear, w1_at_linear]

/-! ## Between the calls -/

/-- The second call finds, in its first window's array, the reference's neighbourhood sum of what the first call left. -/
theorem sum_eq (c : Dev nD) :
    V5 m ρ c main_v43 = aggOf (W4 m ρ c (Proc.devRef .tc main_v30)) (edges m c) :=
  HostStages.fourth_sum (W4 m ρ c) (edges m c)
    ((W4_of_ne m ρ c main_v3 (by decide)).trans (sources_eq m ρ c))
    ((W4_of_ne m ρ c main_v6 (by decide)).trans (targets_eq m ρ c))
    ((W4_of_ne m ρ c main_v29 (by decide)).trans (coefficients_eq m ρ c))

/-! ## The second call finds its weights and biases as launched -/

theorem main_arg3_at_heads (c : Dev nD) : V5 m ρ c main_arg3 = m ((c : Thread nD τ).loc main_arg3) :=
  ((A_eq1 (V5 m ρ) c 1).symm.trans (((dat1 (V5 m ρ) c).arrAt_in 1 rfl _).symm.trans (W6_arr m ρ c 1).symm)).trans
    (W6_main_arg3 m ρ c)

theorem main_arg4_at_heads (c : Dev nD) : V5 m ρ c main_arg4 = m ((c : Thread nD τ).loc main_arg4) :=
  ((A_eq1 (V5 m ρ) c 2).symm.trans (((dat1 (V5 m ρ) c).arrAt_in 2 rfl _).symm.trans (W6_arr m ρ c 2).symm)).trans
    (W6_main_arg4 m ρ c)

theorem main_arg5_at_heads (c : Dev nD) : V5 m ρ c main_arg5 = m ((c : Thread nD τ).loc main_arg5) :=
  ((A_eq1 (V5 m ρ) c 3).symm.trans (((dat1 (V5 m ρ) c).arrAt_in 3 rfl _).symm.trans (W6_arr m ρ c 3).symm)).trans
    (W6_main_arg5 m ρ c)

theorem main_arg6_at_heads (c : Dev nD) : V5 m ρ c main_arg6 = m ((c : Thread nD τ).loc main_arg6) :=
  ((A_eq1 (V5 m ρ) c 4).symm.trans (((dat1 (V5 m ρ) c).arrAt_in 4 rfl _).symm.trans (W6_arr m ρ c 4).symm)).trans
    (W6_main_arg6 m ρ c)

theorem main_arg7_at_heads (c : Dev nD) : V5 m ρ c main_arg7 = m ((c : Thread nD τ).loc main_arg7) :=
  ((A_eq1 (V5 m ρ) c 5).symm.trans (((dat1 (V5 m ρ) c).arrAt_in 5 rfl _).symm.trans (W6_arr m ρ c 5).symm)).trans
    (W6_main_arg7 m ρ c)

/-! ## The two results -/

/-- The first result array after the run. -/
theorem result0_eq (c : Dev nD) :
    W6 m ρ c (Proc.devRef .tc main_v44_0)
      = Cert.Encoder.head
          (aggOf (Cert.Encoder.lin (m ((c : Thread nD τ).loc main_arg0)) (m ((c : Thread nD τ).loc main_arg2))) (edges m c))
          (m ((c : Thread nD τ).loc main_arg3)) (m ((c : Thread nD τ).loc main_arg4)) (m ((c : Thread nD τ).loc main_arg5)) := by
  refine (W6_arr m ρ c 6).trans ((Cert.KernelIdeal.Region1.array6_eq (V5 m ρ) c).trans ?_)
  show Cert.Encoder.head (V5 m ρ c main_v43) (V5 m ρ c main_arg3) (V5 m ρ c main_arg4) (V5 m ρ c main_arg5) = _
  rw [sum_eq, linear_eq, main_arg3_at_heads, main_arg4_at_heads, main_arg5_at_heads]

/-- The second result array after the run. -/
theorem result1_eq (c : Dev nD) :
    W6 m ρ c (Proc.devRef .tc main_v44_1)
      = Cert.Encoder.head
          (aggOf (Cert.Encoder.lin (m ((c : Thread nD τ).loc main_arg0)) (m ((c : Thread nD τ).loc main_arg2))) (edges m c))
          (m ((c : Thread nD τ).loc main_arg3)) (m ((c : Thread nD τ).loc main_arg6)) (m ((c : Thread nD τ).loc main_arg7)) := by
  refine (W6_arr m ρ c 7).trans ((Cert.KernelIdeal.Region1.array7_eq (V5 m ρ) c).trans ?_)
  show Cert.Encoder.head (V5 m ρ c main_v43) (V5 m ρ c main_arg3) (V5 m ρ c main_arg6) (V5 m ρ c main_arg7) = _
  rw [sum_eq, linear_eq, main_arg3_at_heads, main_arg6_at_heads, main_arg7_at_heads]

end Cert.KernelIdeal.HostChain

end
-- ==== Proof.lean ====
/-
  A variational graph encoder: a graph convolution, a rectifier and two linear heads.

  With loops appended to the edge list, deg the number of edges into each node, and c(e) = deg(src e)^(-1/2) ·
  deg(dst e)^(-1/2) (zero where a degree is zero), the encoder computes h = x · W1ᵀ, the neighbourhood sum
  A(n) = Σ over edges e into n of c(e) · h(src e), and returns relu(A + b1) · Wmuᵀ + bmu and relu(A + b1) · Wlvᵀ + blv.

  The kernel's program computes h and the two heads in two pallas_calls over ten blocks of 10000 rows, with bf16
  operands in its three matrix products; the reference computes everything by host operations. Over the extended
  reals the rounding to bf16 is the identity and a product into a zero accumulator is the plain sum over the contracted
  coordinate, so each pallas_call's output array is one function of the arrays it finds: x · W1ᵀ for the first, a head
  (`Cert.Encoder.head`) for the second. The degrees, the coefficients, the gather and the scatter-add are the same host
  operations in both programs; they are carried as the reference's own stages and never opened. No law of arithmetic
  beyond "the same sum" is used, so the finiteness of the inputs is not needed.

  The frames of the two kernel programs and the reference's run are generated modules; the kernel program's run is
  stated once more with its two result arrays named.
-/
import proofs.«127251_j34497177322134_1_alg».proof.Defs
import proofs.«127251_j34497177322134_1_alg».proof.Proof.Gen.Kernel
import proofs.«127251_j34497177322134_1_alg».proof.Proof.Gen.Kernel.Frame
import proofs.«127251_j34497177322134_1_alg».proof.Proof.Gen.KernelIdeal
import proofs.«127251_j34497177322134_1_alg».proof.Proof.Gen.KernelIdeal.Frame
import proofs.«127251_j34497177322134_1_alg».proof.Proof.Gen.ReferenceIdeal
import proofs.«127251_j34497177322134_1_alg».proof.Proof.Gen.Pre_finite_inputs
import proofs.«127251_j34497177322134_1_alg».proof.Proof.KRun
import proofs.«127251_j34497177322134_1_alg».proof.Proof.HostChain
import proofs.«127251_j34497177322134_1_alg».proof.Proof.RefRun
import proofs.«127251_j34497177322134_1_alg».proof.Proof.RefRead
import proofs.«127251_j34497177322134_1_alg».proof.Proof.RefSpec
import Idealize.ShloMosaic.Adequacy
import Idealize.ShloMosaic.Init

set_option maxRecDepth 16384

noncomputable section

namespace Cert.Proof

open Idealize.ShloMosaic Idealize.ShloMosaic.TcCoe Idealize.SL.Sem
open Cert.ReferenceIdeal.Bridge (aggOf)

/-- Both kernel programs run, and leave their arguments as launched. -/
theorem frame_kernel : Cert.frame_Kernel := fun m ρ _ => Cert.Kernel.Gen.frame m ρ
theorem frame_kernelIdeal : Cert.frame_KernelIdeal := fun m ρ _ => Cert.KernelIdeal.Gen.frame m ρ

/-- The reference runs, and leaves its arguments as launched: its run with the two results dropped. -/
theorem frame_reference : Cert.frame_ReferenceIdeal := fun m ρ _ =>
  (θ_run Cert.ReferenceIdeal.defs _ _).mono (fun _ h c => (h c).2.2) (Cert.ReferenceIdeal.ValueP.run (F := Ideal) m ρ)

/-- The idealization rewrote nothing. -/
theorem preserves : Cert.preserves_Kernel_KernelIdeal := trivial

/-- Both programs end with the first result at the mean head, and the second at the log-variance head, of the
    neighbourhood sum of x · W1ᵀ: the kernel program by its two pallas_calls' arrays around the shared host operations,
    the reference by reading its products at an index; the arguments agree. -/
theorem algebraic : Cert.algebraic_KernelIdeal_ReferenceIdeal := by
  intro m ρ m' ρ' _ hagree
  refine ⟨fun c => Cert.Encoder.head
      (aggOf (Cert.Encoder.lin (m ((c.tc : Thread Cert.KernelIdeal.nD Cert.KernelIdeal.τ).loc Cert.KernelIdeal.main_arg0))
          (m ((c.tc : Thread Cert.KernelIdeal.nD Cert.KernelIdeal.τ).loc Cert.KernelIdeal.main_arg2)))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    fun c => Cert.Encoder.head
      (aggOf (Cert.Encoder.lin (m ((c.tc : Thread Cert.KernelIdeal.nD Cert.KernelIdeal.τ).loc Cert.KernelIdeal.main_arg0))
          (m ((c.tc : Thread Cert.KernelIdeal.nD Cert.KernelIdeal.τ).loc Cert.KernelIdeal.main_arg2)))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.HostChain.result0_eq m ρ c),
        (h c).2.1.trans (Cert.KernelIdeal.HostChain.result1_eq m ρ c), (h c).2.2⟩)
      (Cert.KernelIdeal.Named.run_named (F := Ideal) m ρ)
  · refine (θ_run Cert.ReferenceIdeal.defs _ _).mono (fun r h c => ⟨?_, ?_, (h c).2.2⟩)
      (Cert.ReferenceIdeal.ValueP.run (F := Ideal) m' ρ')
    · refine (h c).1.trans ((Cert.ReferenceIdeal.ReadP.val_main_v53_eq m' c).trans
        ((Cert.ReferenceIdeal.Bridge.result0_eq _ _ _ _ _ _).trans ?_))
      rw [(hagree c).1, (hagree c).2.1, (hagree c).2.2.1, (hagree c).2.2.2.1, (hagree c).2.2.2.2.1, (hagree c).2.2.2.2.2.1]
    · refine (h c).2.1.trans ((Cert.ReferenceIdeal.ReadP.val_main_v58_eq m' c).trans
        ((Cert.ReferenceIdeal.Bridge.result1_eq _ _ _ _ _ _).trans ?_))
      rw [(hagree c).1, (hagree c).2.1, (hagree c).2.2.1, (hagree c).2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
